-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S64x256x1 : Shape := ⟨3, ![64, 256, 1]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x256x1 : S_.BroadcastsInDim S64x256x1 (![] : Fin 0 → Fin S64x256x1.rank)
  reducesTo_S64x256x1_S_d0_1_2 : S64x256x1.ReducesTo [0, 1, 2] S_

variable [Facts]

def fn {F : FTy → Type} [FloatOps F] (main_arg0 : FVec F S64x256x512 .f32) (main_arg1 : FVec F S64x256x512 .f32) (main_arg2 : FVec F S64x256x1 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  let main_v9 : FVec F S64x256x1 .f32 := Host.absf main_arg2
  let main_cst_2 : FVec F S_ .f32 := constant S_ .f32 0x7F800000#32
  let main_v10 : FVec F S64x256x1 .f32 := broadcastInDim S64x256x1 ![] bcast_S_S64x256x1 main_cst_2
  let main_v11 : IVec S64x256x1 1 := cmpf .olt main_v9 main_v10
  let main_c_3 : IVec S_ 1 := constantI S_ 1 1#1
  let main_v12 : IVec S_ 1 := (fun x v => Host.reduce IntOp.andi x v reducesTo_S64x256x1_S_d0_1_2 h_S_) main_v11 main_c_3
  let main_v13 : IVec S_ 1 := andi main_v8 main_v12
  main_v13
-- ==== Kernel.lean ====
abbrev S64x256x512 : Shape := ⟨3, ![64, 256, 512]⟩
abbrev S64x256x1 : Shape := ⟨3, ![64, 256, 1]⟩
abbrev S64x512x512 : Shape := ⟨3, ![64, 512, 512]⟩
abbrev S1x256x512 : Shape := ⟨3, ![1, 256, 512]⟩
abbrev S1x256x1 : Shape := ⟨3, ![1, 256, 1]⟩
abbrev S1x512x512 : Shape := ⟨3, ![1, 512, 512]⟩
abbrev S256x512 : Shape := ⟨2, ![256, 512]⟩
abbrev S256x1 : Shape := ⟨2, ![256, 1]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S64x256x1, .f32⟩
  | .hbm, ⟨3, _⟩ => ⟨S64x512x512, .f32⟩
  | .hbm, ⟨4, _⟩ => ⟨S64x512x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1, .f32⟩
  | .local _ .vmem, ⟨5, _⟩ => ⟨S1x256x1, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x512 : S256x1.Broadcasts S256x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S256x512_S256x512_S512x512_0_0_1_1_n_n_wf : DotDims.WF S256x512 S256x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S64x256x512.size a
  hwx0_0 : ∀ i : grid0.Coords, EltTy.bits .f32 = 32 ∨ (Rect.block (s := S64x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S64x256x512.size a
  hwx0_1 : ∀ i : grid0.Coords, EltTy.bits .f32 = 32 ∨ (Rect.block (s := S64x256x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S64x256x1.size a
  hwx0_2 : ∀ i : grid0.Coords, EltTy.bits .f32 = 32 ∨ (Rect.block (s := S64x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .f32 = 32 ∨ (Rect.block (s := S64x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)

variable [Facts₀]

def dot_S256x512_S256x512_S512x512_0_0_1_1_n_n : DotDims S256x512 S256x512 S512x512 where
  lhsContracting := [0]
  rhsContracting := [0]
  lhsNonContracting := [1]
  rhsNonContracting := [1]
  lhsBatch := []
  rhsBatch := []
  wf := dot_S256x512_S256x512_S512x512_0_0_1_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S64x256x1 : Shape := ⟨3, ![64, 256, 1]⟩
abbrev S64x256 : Shape := ⟨2, ![64, 256]⟩
abbrev S64x512x512 : Shape := ⟨3, ![64, 512, 512]⟩

abbrev nBuf : Space → Nat
  | .hbm => 16
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S64x256x1, .f32⟩
  | .hbm, ⟨3, _⟩ => ⟨S64x256, .f32⟩
  | .hbm, ⟨4, _⟩ => ⟨S64x256x1, .f32⟩
  | .hbm, ⟨5, _⟩ => ⟨S64x256x512, .f32⟩
  | .hbm, ⟨6, _⟩ => ⟨S64x256x512, .f32⟩
  | .hbm, ⟨7, _⟩ => ⟨S64x256x1, .f32⟩
  | .hbm, ⟨8, _⟩ => ⟨S64x256x512, .f32⟩
  | .hbm, ⟨9, _⟩ => ⟨S64x256x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S64x512x512, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  shapeCasts_S64x256x1_S64x256 : S64x256x1.ShapeCasts S64x256
  bcast_S64x256_S64x256x1_0_1 : S64x256.BroadcastsInDim S64x256x1 (![0, 1] : Fin 2 → Fin S64x256x1.rank)
  bcast_S64x256x1_S64x256x512_0_1_2 : S64x256x1.BroadcastsInDim S64x256x512 (![0, 1, 2] : Fin 3 → Fin S64x256x512.rank)
  dot_S64x256x512_S64x256x512_S64x512x512_1_1_2_2_0_0_wf : DotDims.WF S64x256x512 S64x256x512 S64x512x512 [1] [1] [2] [2] [0] [0]

variable [Facts₀]

def dot_S64x256x512_S64x256x512_S64x512x512_1_1_2_2_0_0 : DotDims S64x256x512 S64x256x512 S64x512x512 where
  lhsContracting := [1]
  rhsContracting := [1]
  lhsNonContracting := [2]
  rhsNonContracting := [2]
  lhsBatch := [0]
  rhsBatch := [0]
  wf := dot_S64x256x512_S64x256x512_S64x512x512_1_1_2_2_0_0_wf

class Facts : Prop extends Facts₀ where

variable [Facts]
-- ==== Proof.LibColumnForms.lean ====
/-
  Column and leading-axis layout steps read at an index. A length-`a` vector cast to an `[a, 1]` column keeps its
  entries; a column broadcast to `[a, b]` repeats its entry along each row; a `[1, b, c]` array broadcast to
  `[a, b, c]` repeats its one slab. These are the steps behind `sum(keepdims=True)` added to a transposed column,
  and behind `b[None, :, :]` paired against every row of another array.
-/
import Idealize.ShloMosaic.Lib.Pipeline.Value
import Idealize.ShloMosaic.Lib.ValueIdx

namespace Cert.LibColumnForms

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibColumnForms
-- ==== Proof.Spec.lean ====
/-
  The weighted complex Gram matrix, entry by entry, on the extended reals.

  For a sample `b` the inputs are the rows `re[b,t,·]`, `im[b,t,·]` (t < 256, 512 columns) and one weight
  `w[b,t]` per row. With
      ⟨x, y⟩_w (d, e) = Σ_t (x[b,t,d] · w[b,t]) · y[b,t,e]
  the real part of the result at (d, e) is ⟨re, re⟩_w + ⟨im, im⟩_w and the imaginary part is
  ⟨im, re⟩_w − ⟨re, im⟩_w. Each term keeps the order of its three factors, so no law of the extended reals
  is needed to compare two programs that both compute it this way.
-/
import Idealize.ShloMosaic.PureOps.Ideal
import Idealize.ShloMosaic.Lib.ValueIdx

noncomputable section

namespace Cert.Gram

open Idealize.ShloMosaic Idealize.ShloMosaic.ValueIdx

/-- A stack of 64 matrices of 256 rows and 512 columns. -/
abbrev Rows := (⟨3, ![64, 256, 512]⟩ : Shape).Idx → EReal
/-- One weight per row of each of the 64 matrices, kept as a column. -/
abbrev Weights := (⟨3, ![64, 256, 1]⟩ : Shape).Idx → EReal
/-- A stack of 64 square matrices of order 512. -/
abbrev Squares := (⟨3, ![64, 512, 512]⟩ : Shape).Idx → EReal

/-- The weighted product of column `d` of `x` with column `e` of `y` in sample `b`:
    `Σ_t (x[b,t,d] · w[b,t]) · y[b,t,e]`. -/
def wdot (x y : Rows) (w : Weights) (b : Fin 64) (d e : Fin 512) : EReal :=
  ∑ t : Fin 256, (x (ix3 b t d) * w (ix3 b t (0 : Fin 1))) * y (ix3 b t e)

/-- The real part: `⟨re, re⟩_w + ⟨im, im⟩_w`. -/
def gramRe (re im : Rows) (w : Weights) : Squares :=
  fun j => wdot re re w (j 0) (j 1) (j 2) + wdot im im w (j 0) (j 1) (j 2)

/-- The imaginary part: `⟨im, re⟩_w − ⟨re, im⟩_w`. -/
def gramIm (re im : Rows) (w : Weights) : Squares :=
  fun j => wdot im re w (j 0) (j 1) (j 2) - wdot re im w (j 0) (j 1) (j 2)

theorem gramRe_ix3 (re im : Rows) (w : Weights) (b : Fin 64) (d e : Fin 512) :
    gramRe re im w (ix3 b d e) = wdot re re w b d e + wdot im im w b d e := rfl

theorem gramIm_ix3 (re im : Rows) (w : Weights) (b : Fin 64) (d e : Fin 512) :
    gramIm re im w (ix3 b d e) = wdot im re w b d e - wdot re im w b d e := rfl

end Cert.Gram

end
-- ==== Proof.KernelBody.lean ====
/-
  What one grid step of the kernel stores, entry by entry.

  A step holds one sample: the blocks `r`, `im` of 256 rows by 512 columns and the column `w` of 256 weights. It
  scales the rows, `rw[t,d] = r[t,d] · w[t]` and `iw[t,d] = im[t,d] · w[t]`, and forms four matrix products that
  contract the row axis of both operands; at `(d, e)` such a product of `L` and `R` is `Σ_t L[t,d] · R[t,e]`. The
  changes of float format between the scaling and the products are the identity on the extended reals. The first
  store is `rw·r + iw·im`, the second `iw·r − rw·im`.
-/
import proofs.«160492_j54838142435828_1_alg».proof.Proof.Gen.KernelIdeal.Skeleton
import proofs.«160492_j54838142435828_1_alg».proof.Proof.LibColumnForms
import proofs.«160492_j54838142435828_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelBody

open Cert.KernelIdeal Cert.KernelIdeal.Gen
open Idealize.ShloMosaic Idealize.ShloMosaic.ValueIdx

/-! ## The matrix product that contracts the row axis of both operands -/

theorem lhs_axis0 (i : S512x512.Idx) (q : dot_S256x512_S256x512_S512x512_0_0_1_1_n_n.contr.Idx) :
    (dot_S256x512_S256x512_S512x512_0_0_1_1_n_n.lhsIdx i q 0).val = (q ⟨0, by decide⟩).val :=
  dot_S256x512_S256x512_S512x512_0_0_1_1_n_n.lhsIdx_val_of_single rfl i q
theorem lhs_axis1 (i : S512x512.Idx) (q : dot_S256x512_S256x512_S512x512_0_0_1_1_n_n.contr.Idx) :
    (dot_S256x512_S256x512_S512x512_0_0_1_1_n_n.lhsIdx i q 1).val = (i 0).val := by
  unfold DotDims.lhsIdx
  rw [dif_neg (show ¬(1 : Fin S256x512.rank) ∈ dot_S256x512_S256x512_S512x512_0_0_1_1_n_n.lhsBatch by decide), dif_pos (show (1 : Fin S256x512.rank) ∈ dot_S256x512_S256x512_S512x512_0_0_1_1_n_n.lhsNonContracting by decide)]
  rfl
theorem rhs_axis0 (i : S512x512.Idx) (q : dot_S256x512_S256x512_S512x512_0_0_1_1_n_n.contr.Idx) :
    (dot_S256x512_S256x512_S512x512_0_0_1_1_n_n.rhsIdx i q 0).val = (q ⟨0, by decide⟩).val :=
  dot_S256x512_S256x512_S512x512_0_0_1_1_n_n.rhsIdx_val_of_single rfl i q
theorem rhs_axis1 (i : S512x512.Idx) (q : dot_S256x512_S256x512_S512x512_0_0_1_1_n_n.contr.Idx) :
    (dot_S256x512_S256x512_S512x512_0_0_1_1_n_n.rhsIdx i q 1).val = (i 1).val := by
  unfold DotDims.rhsIdx
  rw [dif_neg (show ¬(1 : Fin S256x512.rank) ∈ dot_S256x512_S256x512_S512x512_0_0_1_1_n_n.rhsBatch by decide), dif_pos (show (1 : Fin S256x512.rank) ∈ dot_S256x512_S256x512_S512x512_0_0_1_1_n_n.rhsNonContracting by decide)]
  rfl

/-- Into a zero accumulator the product at `(d, e)` is `Σ_t L[t,d] · R[t,e]`. -/
theorem product_apply (L R : FVec Ideal S256x512 .bf16) (d e : Fin 512) :
    matmul dot_S256x512_S256x512_S512x512_0_0_1_1_n_n none L R (constant S512x512 .f32 0x00000000#32) (ix2 d e)
      = ∑ t : Fin 256, L (ix2 t d) * R (ix2 t e) := by
  simp only [matmul]
  rw [Ideal.matmul_constant_zero_apply, ← Equiv.sum_comp (contrEquiv1 dot_S256x512_S256x512_S512x512_0_0_1_1_n_n 256 rfl rfl).symm]
  refine Finset.sum_congr rfl fun k _ => ?_
  have hk := contrEquiv1_symm_val dot_S256x512_S256x512_S512x512_0_0_1_1_n_n 256 rfl rfl k
  have el : dot_S256x512_S256x512_S512x512_0_0_1_1_n_n.lhsIdx (ix2 d e) ((contrEquiv1 dot_S256x512_S256x512_S512x512_0_0_1_1_n_n 256 rfl rfl).symm k) = ix2 k d := funext fun a => Fin.ext (by
    match a with
    | ⟨0, _⟩ => exact (lhs_axis0 _ _).trans hk
    | ⟨1, _⟩ => exact lhs_axis1 _ _)
  have er : dot_S256x512_S256x512_S512x512_0_0_1_1_n_n.rhsIdx (ix2 d e) ((contrEquiv1 dot_S256x512_S256x512_S512x512_0_0_1_1_n_n 256 rfl rfl).symm k) = ix2 k e := funext fun a => Fin.ext (by
    match a with
    | ⟨0, _⟩ => exact (rhs_axis0 _ _).trans hk
    | ⟨1, _⟩ => exact rhs_axis1 _ _)
  rw [el, er]

/-! ## The operands of the products -/

/-- A block with its leading unit axis dropped, then narrowed: entry `(t, d)` is the block's `(0, t, d)`. -/
theorem plain_first (r : Vec Ideal S1x256x512 .f32) (t : Fin 256) (d : Fin 512) :
    k0_pay4 (F := Ideal) r (ix2 t d) = r (ix3 (0 : Fin 1) t d) := by
  unfold k0_pay4 k0_pay1
  exact shapeCast_1ab_ab_apply r _ t d
theorem plain_second (im : Vec Ideal S1x256x512 .f32) (t : Fin 256) (d : Fin 512) :
    k0_pay5 (F := Ideal) im (ix2 t d) = im (ix3 (0 : Fin 1) t d) := by
  unfold k0_pay5 k0_pay2
  exact shapeCast_1ab_ab_apply im _ t d

/-- The column of weights repeated along the columns: entry `(t, d)` is the weight `(0, t, 0)`. -/
theorem weight_apply (w : Vec Ideal S1x256x1 .f32) (t : Fin 256) (d : Fin 512) :
    broadcastTo S256x512 (k0_pay3 (F := Ideal) w) broadcasts_S256x1_S256x512 (ix2 t d) = w (ix3 (0 : Fin 1) t (0 : Fin 1)) := by
  rw [Cert.LibColumnForms.broadcastTo_a1_ab_apply]
  unfold k0_pay3
  exact shapeCast_1ab_ab_apply w _ t (0 : Fin 1)

/-- A scaled block: entry `(t, d)` is `r[0,t,d] · w[0,t,0]`. -/
theorem scaled_first (r : Vec Ideal S1x256x512 .f32) (w : Vec Ideal S1x256x1 .f32) (t : Fin 256) (d : Fin 512) :
    k0_pay6 (F := Ideal) r w (ix2 t d) = r (ix3 (0 : Fin 1) t d) * w (ix3 (0 : Fin 1) t (0 : Fin 1)) := by
  unfold k0_pay6
  show (k0_pay1 (F := Ideal) r (ix2 t d)) * (broadcastTo S256x512 (k0_pay3 (F := Ideal) w) broadcasts_S256x1_S256x512 (ix2 t d)) = _
  rw [weight_apply]
  unfold k0_pay1
  rw [shapeCast_1ab_ab_apply r _ t d]
theorem scaled_second (im : Vec Ideal S1x256x512 .f32) (w : Vec Ideal S1x256x1 .f32) (t : Fin 256) (d : Fin 512) :
    k0_pay7 (F := Ideal) im w (ix2 t d) = im (ix3 (0 : Fin 1) t d) * w (ix3 (0 : Fin 1) t (0 : Fin 1)) := by
  unfold k0_pay7
  show (k0_pay2 (F := Ideal) im (ix2 t d)) * (broadcastTo S256x512 (k0_pay3 (F := Ideal) w) broadcasts_S256x1_S256x512 (ix2 t d)) = _
  rw [weight_apply]
  unfold k0_pay2
  rw [shapeCast_1ab_ab_apply im _ t d]

/-! ## The two stores -/

/-- The weighted product of two blocks of one sample, as the kernel forms it. -/
def blockDot (x y : Vec Ideal S1x256x512 .f32) (w : Vec Ideal S1x256x1 .f32) (d e : Fin 512) : EReal :=
  ∑ t : Fin 256, (x (ix3 (0 : Fin 1) t d) * w (ix3 (0 : Fin 1) t (0 : Fin 1))) * y (ix3 (0 : Fin 1) t e)

/-- The first store at `(0, d, e)`: `⟨r, r⟩_w + ⟨im, im⟩_w` of the step's blocks. -/
theorem store_first (r im : Vec Ideal S1x256x512 .f32) (w : Vec Ideal S1x256x1 .f32) (u : Fin 1) (d e : Fin 512) :
    k0_pay8 (F := Ideal) r im w (ix3 u d e) = blockDot r r w d e + blockDot im im w d e := by
  unfold k0_pay8
  rw [shapeCast_ab_1ab_apply _ _ u d e]
  show matmul dot_S256x512_S256x512_S512x512_0_0_1_1_n_n none (k0_pay6 (F := Ideal) r w) (k0_pay4 (F := Ideal) r) (constant S512x512 .f32 0x00000000#32) (ix2 d e)
      + matmul dot_S256x512_S256x512_S512x512_0_0_1_1_n_n none (k0_pay7 (F := Ideal) im w) (k0_pay5 (F := Ideal) im) (constant S512x512 .f32 0x00000000#32) (ix2 d e) = _
  rw [product_apply, product_apply]
  unfold blockDot
  simp only [scaled_first, scaled_second, plain_first, plain_second]

/-- The second store at `(0, d, e)`: `⟨im, r⟩_w − ⟨r, im⟩_w` of the step's blocks. -/
theorem store_second (r im : Vec Ideal S1x256x512 .f32) (w : Vec Ideal S1x256x1 .f32) (u : Fin 1) (d e : Fin 512) :
    k0_pay9 (F := Ideal) r im w (ix3 u d e) = blockDot im r w d e - blockDot r im w d e := by
  unfold k0_pay9
  rw [shapeCast_ab_1ab_apply _ _ u d e]
  show matmul dot_S256x512_S256x512_S512x512_0_0_1_1_n_n none (k0_pay7 (F := Ideal) im w) (k0_pay4 (F := Ideal) r) (constant S512x512 .f32 0x00000000#32) (ix2 d e)
      - matmul dot_S256x512_S256x512_S512x512_0_0_1_1_n_n none (k0_pay6 (F := Ideal) r w) (k0_pay5 (F := Ideal) im) (constant S512x512 .f32 0x00000000#32) (ix2 d e) = _
  rw [product_apply, product_apply]
  unfold blockDot
  simp only [scaled_first, scaled_second, plain_first, plain_second]

/-! ## A step's stores as entries of the specification

When the step's blocks are the rows of sample `b` of the whole arrays, what it stores at `(0, d, e)` is the
specification's entry `(b, d, e)`. -/

open Cert.Gram in
/-- The first store is the real part at the sample's entries. -/
theorem store_first_spec (r im : Vec Ideal S1x256x512 .f32) (w : Vec Ideal S1x256x1 .f32) (R I : Rows) (W : Weights) (b : Fin 64)
    (hr : ∀ (k : Fin 256) (d : Fin 512), r (ix3 (0 : Fin 1) k d) = R (ix3 b k d))
    (hi : ∀ (k : Fin 256) (d : Fin 512), im (ix3 (0 : Fin 1) k d) = I (ix3 b k d))
    (hw : ∀ k : Fin 256, w (ix3 (0 : Fin 1) k (0 : Fin 1)) = W (ix3 b k (0 : Fin 1)))
    (y : S1x512x512.Idx) (i : S64x512x512.Idx) (h0 : (i 0).val = b.val) (h1 : (i 1).val = (y 1).val) (h2 : (i 2).val = (y 2).val) :
    k0_pay8 (F := Ideal) r im w y = gramRe R I W i := by
  obtain ⟨u, d, e, rfl⟩ : ∃ (u : Fin 1) (d e : Fin 512), y = ix3 u d e := ⟨y 0, y 1, y 2, eq_ix3 y⟩
  have hi' : i = ix3 b d e := funext fun a => Fin.ext (by
    match a with
    | ⟨0, _⟩ => exact h0
    | ⟨1, _⟩ => exact h1
    | ⟨2, _⟩ => exact h2)
  rw [hi', store_first, gramRe_ix3]
  unfold blockDot wdot
  simp only [hr, hi, hw]

open Cert.Gram in
/-- The second store is the imaginary part at the sample's entries. -/
theorem store_second_spec (r im : Vec Ideal S1x256x512 .f32) (w : Vec Ideal S1x256x1 .f32) (R I : Rows) (W : Weights) (b : Fin 64)
    (hr : ∀ (k : Fin 256) (d : Fin 512), r (ix3 (0 : Fin 1) k d) = R (ix3 b k d))
    (hi : ∀ (k : Fin 256) (d : Fin 512), im (ix3 (0 : Fin 1) k d) = I (ix3 b k d))
    (hw : ∀ k : Fin 256, w (ix3 (0 : Fin 1) k (0 : Fin 1)) = W (ix3 b k (0 : Fin 1)))
    (y : S1x512x512.Idx) (i : S64x512x512.Idx) (h0 : (i 0).val = b.val) (h1 : (i 1).val = (y 1).val) (h2 : (i 2).val = (y 2).val) :
    k0_pay9 (F := Ideal) r im w y = gramIm R I W i := by
  obtain ⟨u, d, e, rfl⟩ : ∃ (u : Fin 1) (d e : Fin 512), y = ix3 u d e := ⟨y 0, y 1, y 2, eq_ix3 y⟩
  have hi' : i = ix3 b d e := funext fun a => Fin.ext (by
    match a with
    | ⟨0, _⟩ => exact h0
    | ⟨1, _⟩ => exact h1
    | ⟨2, _⟩ => exact h2)
  rw [hi', store_second, gramIm_ix3]
  unfold blockDot wdot
  simp only [hr, hi, hw]

end Cert.KernelBody

end
-- ==== Proof.KernelGram.lean ====
/-
  From the grid steps to the whole results.

  The call runs 64 steps, one per sample. Step `t` fetches rows `(t, ·, ·)` of the two inputs and of the weights
  (every window's block index at step `t` is `(t, 0, 0)`), and writes its two 512 × 512 stores back to rows
  `(t, ·, ·)` of the two results. The blocks of the 64 steps tile each result, so each result ends holding the
  specification's real part and imaginary part of the argument arrays.
-/
import proofs.«160492_j54838142435828_1_alg».proof.Proof.Gen.KernelIdeal.Value
import proofs.«160492_j54838142435828_1_alg».proof.Proof.KernelBody
import proofs.«160492_j54838142435828_1_alg».proof.Proof.Spec
import Idealize.ShloMosaic.Lib.Pipeline.Value

set_option maxRecDepth 16384

noncomputable section

namespace Cert.KernelGram

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gram Cert.KernelBody

variable (m : (ℓ : Loc nD τ sig) → Buf (Elt Ideal) ℓ) (ρ : Dev nD → PrngReg)

theorem origin : (![0, 0, 0] : Fin 3 → Nat) = fun _ => 0 := funext fun a => by fin_cases a <;> rfl

/-- The printed index maps, decided over the 64 steps: every window's block index at step `t` is `(t, 0, 0)`. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## The input blocks of a step are the sample's rows -/

/-- Step `t`'s block of the first input is rows `(t, ·, ·)` of it. -/
theorem first_block (c : Dev nD) (t : Fin cfg0.N) (b : Fin 64) (hb : b.val = t.val) (k : Fin 256) (d : Fin 512) :
    (iblk m c 0 t : Vec Ideal S1x256x512 .f32) (ix3 (0 : Fin 1) k d) = V m c main_arg0 (ix3 b k d) := by
  obtain ⟨e0, e1, e2⟩ := (index_facts t).1
  show V m c main_arg0 (((cfg0.win 0).blk t).view.emb (ix3 (0 : Fin 1) k d)) = V m c main_arg0 (ix3 b k d)
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * k.val = k.val; omega
  | ⟨2, _⟩ => show win0_0.index t (2 : Fin 3) * 512 + 1 * d.val = d.val; omega

/-- Step `t`'s block of the second input is rows `(t, ·, ·)` of it. -/
theorem second_block (c : Dev nD) (t : Fin cfg0.N) (b : Fin 64) (hb : b.val = t.val) (k : Fin 256) (d : Fin 512) :
    (iblk m c 1 t : Vec Ideal S1x256x512 .f32) (ix3 (0 : Fin 1) k d) = V m c main_arg1 (ix3 b k d) := by
  obtain ⟨e0, e1, e2⟩ := (index_facts t).2.1
  show V m c main_arg1 (((cfg0.win 1).blk t).view.emb (ix3 (0 : Fin 1) k d)) = V m c main_arg1 (ix3 b k d)
  refine congrArg _ (funext fun a => Fin.ext ?_)
  match a with
  | ⟨0, _⟩ => show win0_1.index t (0 : Fin 3) * 1 + 1 * 0 = b.val; omega
  | ⟨1, _⟩ => show win0_1.index t (1 : Fin 3) * 256 + 1 * k.val = k.val; omega
  | ⟨2, _⟩ => show win0_1.index t (2 : Fin 3) * 512 + 1 * d.val = d.val; omega

/-- Step `t`'s block of the weights is column `(t, ·, 0)` of them. -/
theorem weight_block (c : Dev nD) (t : Fin cfg0.N) (b : Fin 64) (hb : b.val = t.val) (k : Fin 256) (d : Fin 1) :
    (iblk m c 2 t : Vec Ideal S1x256x1 .f32) (ix3 (0 : Fin 1) k d) = V m c main_arg2 (ix3 b k d) := by
  obtain ⟨e0, e1, e2⟩ := (index_facts t).2.2.1
  show V m c main_arg2 (((cfg0.win 2).blk t).view.emb (ix3 (0 : Fin 1) k d)) = V m c main_arg2 (ix3 b k d)
  refine congrArg _ (funext fun a => Fin.ext ?_)
  match a with
  | ⟨0, _⟩ => show win0_2.index t (0 : Fin 3) * 1 + 1 * 0 = b.val; omega
  | ⟨1, _⟩ => show win0_2.index t (1 : Fin 3) * 256 + 1 * k.val = k.val; omega
  | ⟨2, _⟩ => show win0_2.index t (2 : Fin 3) * 1 + 1 * d.val = d.val; omega

/-! ## The first result -/

/-- What step `t` writes back to the first result is block `t` of the first part of the specification, taken of the
    argument arrays as the call finds them. -/
theorem flushed_re (c : Dev nD) (t : Fin cfg0.N) :
    (dats m 0 c).flushed 3 t = ((cfg0.win 3).blk t).view.read (Elt Ideal) (gramRe (V m c main_arg0) (V m c main_arg1) (V m c main_arg2)) := by
  rw [flushed3]
  unfold out0_3
  rw [View.canon_unit_zero origin]
  simp only [View.ld_unit_zero (S := S1x256x512) origin, View.ld_unit_zero (S := S1x256x1) origin]
  obtain ⟨e0, e1, e2⟩ := (index_facts t).2.2.2.1
  have ht : t.val < 64 := lt_of_lt_of_eq t.isLt (show cfg0.N = 64 from N_0)
  funext y
  have hy0 : (y 0).val < 1 := (y 0).isLt
  have hy1 : (y 1).val < 512 := (y 1).isLt
  have hy2 : (y 2).val < 512 := (y 2).isLt
  show k0_pay8 (F := Ideal) (iblk m c 0 t) (iblk m c 1 t) (iblk m c 2 t) y
      = gramRe (V m c main_arg0) (V m c main_arg1) (V m c main_arg2) (((cfg0.win 3).blk t).view.emb y)
  refine store_first_spec (iblk m c 0 t) (iblk m c 1 t) (iblk m c 2 t) (V m c main_arg0) (V m c main_arg1) (V m c main_arg2) ⟨t.val, ht⟩
    (fun k d => first_block m c t ⟨t.val, ht⟩ rfl k d) (fun k d => second_block m c t ⟨t.val, ht⟩ rfl k d)
    (fun k => weight_block m c t ⟨t.val, ht⟩ rfl k (0 : Fin 1)) y (((cfg0.win 3).blk t).view.emb y) ?_ ?_ ?_
  · show win0_3.index t (0 : Fin 3) * 1 + 1 * (y 0).val = t.val; omega
  · show win0_3.index t (1 : Fin 3) * 512 + 1 * (y 1).val = (y 1).val; omega
  · show win0_3.index t (2 : Fin 3) * 512 + 1 * (y 2).val = (y 2).val; omega

/-- An entry of the first result lies in step `t`'s block exactly when each coordinate lies in the block's range. -/
theorem mem_block_re (t : Fin cfg0.N) (i : S64x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0_0).slice (win0_3.rect t)).set ↔ _
  rw [View.set_slice_whole, Rect.mem_set_unit]
  exact Iff.rfl

/-- Every entry `(b, d, e)` of the first result is written back by step `b`. -/
theorem cover_re (i : S64x512x512.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 512 := (i 2).isLt
  have hN : (i 0).val < cfg0.N := by rw [show cfg0.N = 64 from N_0]; exact hi0
  refine ⟨⟨(i 0).val, hN⟩, flush0_3 _, ?_⟩
  obtain ⟨e0, e1, e2⟩ := (index_facts ⟨(i 0).val, hN⟩).2.2.2.1
  rw [mem_block_re]
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; rw [e0]; show (i 0).val * 1 ≤ (i 0).val ∧ (i 0).val < (i 0).val * 1 + 1; omega
  | ⟨1, _⟩ => show win0_3.index ⟨(i 0).val, hN⟩ (1 : Fin 3) * 512 ≤ (i 1).val ∧ (i 1).val < win0_3.index ⟨(i 0).val, hN⟩ (1 : Fin 3) * 512 + 512; omega
  | ⟨2, _⟩ => show win0_3.index ⟨(i 0).val, hN⟩ (2 : Fin 3) * 512 ≤ (i 2).val ∧ (i 2).val < win0_3.index ⟨(i 0).val, hN⟩ (2 : Fin 3) * 512 + 512; omega

/-- So after the call the first result holds the first part of the specification. -/
theorem final_re (c : Dev nD) :
    (dats m 0 c).arrAt 3 cfg0.N = gramRe (m ((c : Thread nD τ).loc main_arg0)) (m ((c : Thread nD τ).loc main_arg1)) (m ((c : Thread nD τ).loc main_arg2)) :=
  (dats m 0 c).arrAt_eq_of_cover 3 (gramRe (V m c main_arg0) (V m c main_arg1) (V m c main_arg2)) (fun t _ => flushed_re m c t) cover_re

/-! ## The second result -/

/-- What step `t` writes back to the second result is block `t` of the second part of the specification, taken of the
    argument arrays as the call finds them. -/
theorem flushed_im (c : Dev nD) (t : Fin cfg0.N) :
    (dats m 0 c).flushed 4 t = ((cfg0.win 4).blk t).view.read (Elt Ideal) (gramIm (V m c main_arg0) (V m c main_arg1) (V m c main_arg2)) := by
  rw [flushed4]
  unfold out0_4
  rw [View.canon_unit_zero origin]
  simp only [View.ld_unit_zero (S := S1x256x512) origin, View.ld_unit_zero (S := S1x256x1) origin]
  obtain ⟨e0, e1, e2⟩ := (index_facts t).2.2.2.2
  have ht : t.val < 64 := lt_of_lt_of_eq t.isLt (show cfg0.N = 64 from N_0)
  funext y
  have hy0 : (y 0).val < 1 := (y 0).isLt
  have hy1 : (y 1).val < 512 := (y 1).isLt
  have hy2 : (y 2).val < 512 := (y 2).isLt
  show k0_pay9 (F := Ideal) (iblk m c 0 t) (iblk m c 1 t) (iblk m c 2 t) y
      = gramIm (V m c main_arg0) (V m c main_arg1) (V m c main_arg2) (((cfg0.win 4).blk t).view.emb y)
  refine store_second_spec (iblk m c 0 t) (iblk m c 1 t) (iblk m c 2 t) (V m c main_arg0) (V m c main_arg1) (V m c main_arg2) ⟨t.val, ht⟩
    (fun k d => first_block m c t ⟨t.val, ht⟩ rfl k d) (fun k d => second_block m c t ⟨t.val, ht⟩ rfl k d)
    (fun k => weight_block m c t ⟨t.val, ht⟩ rfl k (0 : Fin 1)) y (((cfg0.win 4).blk t).view.emb y) ?_ ?_ ?_
  · show win0_4.index t (0 : Fin 3) * 1 + 1 * (y 0).val = t.val; omega
  · show win0_4.index t (1 : Fin 3) * 512 + 1 * (y 1).val = (y 1).val; omega
  · show win0_4.index t (2 : Fin 3) * 512 + 1 * (y 2).val = (y 2).val; omega

/-- An entry of the second result lies in step `t`'s block exactly when each coordinate lies in the block's range. -/
theorem mem_block_im (t : Fin cfg0.N) (i : S64x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v0_1).slice (win0_4.rect t)).set ↔ _
  rw [View.set_slice_whole, Rect.mem_set_unit]
  exact Iff.rfl

/-- Every entry `(b, d, e)` of the second result is written back by step `b`. -/
theorem cover_im (i : S64x512x512.Idx) :
    ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 512 := (i 2).isLt
  have hN : (i 0).val < cfg0.N := by rw [show cfg0.N = 64 from N_0]; exact hi0
  refine ⟨⟨(i 0).val, hN⟩, flush0_4 _, ?_⟩
  obtain ⟨e0, e1, e2⟩ := (index_facts ⟨(i 0).val, hN⟩).2.2.2.2
  rw [mem_block_im]
  intro a
  match a with
  | ⟨0, _⟩ => show win0_4.index ⟨(i 0).val, hN⟩ (0 : Fin 3) * 1 ≤ (i 0).val ∧ (i 0).val < win0_4.index ⟨(i 0).val, hN⟩ (0 : Fin 3) * 1 + 1; rw [e0]; show (i 0).val * 1 ≤ (i 0).val ∧ (i 0).val < (i 0).val * 1 + 1; omega
  | ⟨1, _⟩ => show win0_4.index ⟨(i 0).val, hN⟩ (1 : Fin 3) * 512 ≤ (i 1).val ∧ (i 1).val < win0_4.index ⟨(i 0).val, hN⟩ (1 : Fin 3) * 512 + 512; omega
  | ⟨2, _⟩ => show win0_4.index ⟨(i 0).val, hN⟩ (2 : Fin 3) * 512 ≤ (i 2).val ∧ (i 2).val < win0_4.index ⟨(i 0).val, hN⟩ (2 : Fin 3) * 512 + 512; omega

/-- So after the call the second result holds the second part of the specification. -/
theorem final_im (c : Dev nD) :
    (dats m 0 c).arrAt 4 cfg0.N = gramIm (m ((c : Thread nD τ).loc main_arg0)) (m ((c : Thread nD τ).loc main_arg1)) (m ((c : Thread nD τ).loc main_arg2)) :=
  (dats m 0 c).arrAt_eq_of_cover 4 (gramIm (V m c main_arg0) (V m c main_arg1) (V m c main_arg2)) (fun t _ => flushed_im m c t) cover_im

/-! ## The run -/

/-- Every weakly fair execution of the kernel's program terminates with the two results at the specification's real and
    imaginary parts of the arguments, and the arguments unchanged. -/
theorem run : θ_run defs (onTc (τ := τ) (main (F := Ideal))) ⟨m, fun _ => 0, ρ⟩ fun r => ∀ c : Dev nD,
      r.2.mem ((c : Thread nD τ).loc main_v0_0) = gramRe (m ((c : Thread nD τ).loc main_arg0)) (m ((c : Thread nD τ).loc main_arg1)) (m ((c : Thread nD τ).loc main_arg2))
      ∧ r.2.mem ((c : Thread nD τ).loc main_v0_1) = gramIm (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_re m c), (h c).2.1.trans (final_im m c), (h c).2.2⟩)
    (run_blocks m ρ)

end Cert.KernelGram

end
-- ==== Proof.RefGram.lean ====
/-
  The reference computes the weighted complex Gram matrix of the specification.

  Its host program first drops the weights' unit axis, puts it back, and repeats each weight along its row's 512
  columns; the product with an input is therefore `x[b,t,d] · w[b,t]`. Each of its four batched matrix products
  contracts the row axis `t` sample by sample, so at `(b, d, e)` it is the sum over `t` of the scaled left operand
  at `(b, t, d)` times the right operand at `(b, t, e)`: one weighted product of the specification. The two results
  are a sum and a difference of such products.
-/
import proofs.«160492_j54838142435828_1_alg».proof.Proof.Gen.ReferenceIdeal.Read
import proofs.«160492_j54838142435828_1_alg».proof.Proof.Spec

noncomputable section

namespace Cert.RefGram

open Cert.ReferenceIdeal Cert.ReferenceIdeal.Gen Cert.ReferenceIdeal.Read
open Idealize.ShloMosaic Idealize.ShloMosaic.ValueIdx Cert.Gram

/-- Dropping the unit axis, restoring it and repeating along the columns reads the weight of the row. -/
theorem weight_index (b : Fin 64) (t : Fin 256) (d : Fin 512) :
    idx_main_v0 (idx_main_v1 (idx_main_v2 (ix3 b t d))) = ix3 b t (0 : Fin 1) :=
  funext fun a => Fin.ext (by
    have ht : t.val < 256 := t.isLt
    match a with
    | ⟨0, _⟩ => show (b.val * 256 + t.val) / 256 = b.val; omega
    | ⟨1, _⟩ => show (b.val * 256 + t.val) / 1 % 256 = t.val; omega
    | ⟨2, _⟩ => rfl)

/-- The same through the second copy of the broadcasts. -/
theorem weight_index' (b : Fin 64) (t : Fin 256) (d : Fin 512) :
    idx_main_v0 (idx_main_v4 (idx_main_v5 (ix3 b t d))) = ix3 b t (0 : Fin 1) :=
  funext fun a => Fin.ext (by
    have ht : t.val < 256 := t.isLt
    match a with
    | ⟨0, _⟩ => show (b.val * 256 + t.val) / 256 = b.val; omega
    | ⟨1, _⟩ => show (b.val * 256 + t.val) / 1 % 256 = t.val; omega
    | ⟨2, _⟩ => rfl)

/-- The first scaled operand at `(b, t, d)` is `x[b,t,d] · w[b,t]`. -/
theorem scaled_first (x : Rows) (w : Weights) (b : Fin 64) (t : Fin 256) (d : Fin 512) :
    val_main_v3 (F := Ideal) x w (ix3 b t d) = x (ix3 b t d) * w (ix3 b t (0 : Fin 1)) := by
  rw [val_main_v3_apply, val_main_v2_apply, val_main_v1_apply, val_main_v0_apply, weight_index]
  rfl

/-- The second scaled operand at `(b, t, d)` is `x[b,t,d] · w[b,t]`. -/
theorem scaled_second (x : Rows) (w : Weights) (b : Fin 64) (t : Fin 256) (d : Fin 512) :
    val_main_v6 (F := Ideal) x w (ix3 b t d) = x (ix3 b t d) * w (ix3 b t (0 : Fin 1)) := by
  rw [val_main_v6_apply, val_main_v5_apply, val_main_v4_apply, val_main_v0_apply, weight_index']
  rfl

/-- The operand indices of the four products at output `(b, d, e)` and row `t`. -/
theorem left_index (b : Fin 64) (d e : Fin 512) (t : Fin 256) : lidx_main_v7 (ix3 b d e) t = ix3 b t d :=
  funext fun a => Fin.ext (by match a with | ⟨0, _⟩ => rfl | ⟨1, _⟩ => rfl | ⟨2, _⟩ => rfl)
theorem right_index (b : Fin 64) (d e : Fin 512) (t : Fin 256) : ridx_main_v7 (ix3 b d e) t = ix3 b t e :=
  funext fun a => Fin.ext (by match a with | ⟨0, _⟩ => rfl | ⟨1, _⟩ => rfl | ⟨2, _⟩ => rfl)

/-- The product of the scaled first input with the first input: `⟨re, re⟩_w`. -/
theorem prod_v7 (re : Rows) (w : Weights) (b : Fin 64) (d e : Fin 512) :
    val_main_v7 (F := Ideal) re w (ix3 b d e) = wdot re re w b d e := by
  rw [val_main_v7_apply]
  unfold wdot
  refine Finset.sum_congr rfl fun t _ => ?_
  rw [show lidx_main_v7 (ix3 b d e) t = ix3 b t d from left_index b d e t,
    show ridx_main_v7 (ix3 b d e) t = ix3 b t e from right_index b d e t, scaled_first]

/-- The product of the scaled second input with the second input: `⟨im, im⟩_w`. -/
theorem prod_v8 (im : Rows) (w : Weights) (b : Fin 64) (d e : Fin 512) :
    val_main_v8 (F := Ideal) im w (ix3 b d e) = wdot im im w b d e := by
  rw [val_main_v8_apply]
  unfold wdot
  refine Finset.sum_congr rfl fun t _ => ?_
  rw [show lidx_main_v8 (ix3 b d e) t = ix3 b t d from left_index b d e t,
    show ridx_main_v8 (ix3 b d e) t = ix3 b t e from right_index b d e t, scaled_second]

/-- The product of the scaled second input with the first input: `⟨im, re⟩_w`. -/
theorem prod_v10 (re im : Rows) (w : Weights) (b : Fin 64) (d e : Fin 512) :
    val_main_v10 (F := Ideal) re im w (ix3 b d e) = wdot im re w b d e := by
  rw [val_main_v10_apply]
  unfold wdot
  refine Finset.sum_congr rfl fun t _ => ?_
  rw [show lidx_main_v10 (ix3 b d e) t = ix3 b t d from left_index b d e t,
    show ridx_main_v10 (ix3 b d e) t = ix3 b t e from right_index b d e t, scaled_second]

/-- The product of the scaled first input with the second input: `⟨re, im⟩_w`. -/
theorem prod_v11 (re im : Rows) (w : Weights) (b : Fin 64) (d e : Fin 512) :
    val_main_v11 (F := Ideal) re im w (ix3 b d e) = wdot re im w b d e := by
  rw [val_main_v11_apply]
  unfold wdot
  refine Finset.sum_congr rfl fun t _ => ?_
  rw [show lidx_main_v11 (ix3 b d e) t = ix3 b t d from left_index b d e t,
    show ridx_main_v11 (ix3 b d e) t = ix3 b t e from right_index b d e t, scaled_first]

/-- The reference's first result is the real part of the specification. -/
theorem real_part (re im : Rows) (w : Weights) : val_main_v9 (F := Ideal) re im w = gramRe re im w := by
  funext j
  obtain ⟨b, d, e, rfl⟩ : ∃ (b : Fin 64) (d e : Fin 512), j = ix3 b d e := ⟨j 0, j 1, j 2, eq_ix3 j⟩
  rw [val_main_v9_apply, prod_v7, prod_v8]
  rfl

/-- The reference's second result is the imaginary part of the specification. -/
theorem imag_part (re im : Rows) (w : Weights) : val_main_v12 (F := Ideal) re im w = gramIm re im w := by
  funext j
  obtain ⟨b, d, e, rfl⟩ : ∃ (b : Fin 64) (d e : Fin 512), j = ix3 b d e := ⟨j 0, j 1, j 2, eq_ix3 j⟩
  rw [val_main_v12_apply, prod_v10, prod_v11]
  rfl

end Cert.RefGram

end
-- ==== Proof.lean ====
/-
  The kernel and its reference compute the same weighted complex Gram matrix.

  For each of 64 samples the inputs are a real and an imaginary block of 256 rows by 512 columns and one weight per
  row. With `⟨x, y⟩_w (d, e) = Σ_t (x[t,d] · w[t]) · y[t,e]`, both programs return `⟨re, re⟩_w + ⟨im, im⟩_w` and
  `⟨im, re⟩_w − ⟨re, im⟩_w` (Proof/Spec.lean). The kernel forms them one sample per grid step with four matrix products
  that contract the row axis (Proof/KernelBody.lean) and writes each step's two 512 × 512 blocks back to the sample's
  rows of the results (Proof/KernelGram.lean); the reference forms them with four batched products over whole arrays
  (Proof/RefGram.lean). On the extended reals the two are the same sums of the same products in the same order of
  factors, so no algebraic law and no finiteness of the inputs is used.
-/
import proofs.«160492_j54838142435828_1_alg».proof.Defs
import proofs.«160492_j54838142435828_1_alg».proof.Proof.Gen.Kernel
import proofs.«160492_j54838142435828_1_alg».proof.Proof.Gen.Kernel.Skeleton
import proofs.«160492_j54838142435828_1_alg».proof.Proof.Gen.Kernel.Launch
import proofs.«160492_j54838142435828_1_alg».proof.Proof.Gen.Kernel.Points
import proofs.«160492_j54838142435828_1_alg».proof.Proof.Gen.Kernel.Frame
import proofs.«160492_j54838142435828_1_alg».proof.Proof.Gen.KernelIdeal
import proofs.«160492_j54838142435828_1_alg».proof.Proof.Gen.KernelIdeal.Skeleton
import proofs.«160492_j54838142435828_1_alg».proof.Proof.Gen.KernelIdeal.Launch
import proofs.«160492_j54838142435828_1_alg».proof.Proof.Gen.KernelIdeal.Points
import proofs.«160492_j54838142435828_1_alg».proof.Proof.Gen.KernelIdeal.Frame
import proofs.«160492_j54838142435828_1_alg».proof.Proof.Gen.ReferenceIdeal
import proofs.«160492_j54838142435828_1_alg».proof.Proof.Gen.Pre_finite_inputs
import proofs.«160492_j54838142435828_1_alg».proof.Proof.Gen.KernelIdeal.Value
import proofs.«160492_j54838142435828_1_alg».proof.Proof.Gen.ReferenceIdeal.Run
import proofs.«160492_j54838142435828_1_alg».proof.Proof.Gen.ReferenceIdeal.Read
import proofs.«160492_j54838142435828_1_alg».proof.Proof.KernelGram
import proofs.«160492_j54838142435828_1_alg».proof.Proof.RefGram
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its run, with the results dropped, is its frame. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories that agree on the arguments both programs end with the specification's real and imaginary parts
    of those arguments. -/
theorem algebraic : Cert.algebraic_KernelIdeal_ReferenceIdeal := by
  intro m ρ m' ρ' _ hagree
  refine ⟨_, _, Cert.KernelGram.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.RefGram.real_part, (hagree c).1, (hagree c).2.1, (hagree c).2.2]
  · rw [Cert.ReferenceIdeal.Read.val_main_v12_eq, Cert.RefGram.imag_part, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
